-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_rows" .f32 0x39AAAAAB#32 ((1 / 3072 : ℝ) : EReal)

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 768]⟩ ⟨2, ![1, 1536]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S3072x1536 : Shape := ⟨2, ![3072, 1536]⟩
abbrev S_ : Shape := ⟨0, ![]⟩

class Facts : Prop where
  bcast_S_S3072x1536 : S_.BroadcastsInDim S3072x1536 (![] : Fin 0 → Fin S3072x1536.rank)
  reducesTo_S3072x1536_S_d0_1 : S3072x1536.ReducesTo [0, 1] S_
  h_S_ : 0 < S_.numel

variable [Facts]

def fn {F : FTy → Type} [FloatOps F] (main_arg0 : FVec F S3072x1536 .f32) : IVec S_ 1 :=
  let main_v0 : FVec F S3072x1536 .f32 := Host.absf main_arg0
  let main_cst : FVec F S_ .f32 := constant S_ .f32 0x7F800000#32
  let main_v1 : FVec F S3072x1536 .f32 := broadcastInDim S3072x1536 ![] bcast_S_S3072x1536 main_cst
  let main_v2 : IVec S3072x1536 1 := cmpf .olt main_v0 main_v1
  let main_c : IVec S_ 1 := constantI S_ 1 1#1
  let main_v3 : IVec S_ 1 := (fun x v => Host.reduce IntOp.andi x v reducesTo_S3072x1536_S_d0_1 h_S_) main_v2 main_c
  main_v3
-- ==== Kernel.lean ====
abbrev S1536x768 : Shape := ⟨2, ![1536, 768]⟩
abbrev S1x768 : Shape := ⟨2, ![1, 768]⟩
abbrev S_ : Shape := ⟨0, ![]⟩
abbrev S768 : Shape := ⟨1, ![768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v19 : BitVec 32 := Scalar.muli v6 c2_i32_11
  let v20 : BitVec 32 := Scalar.addi c0_i32_12 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v21 : BitVec 32 := Scalar.muli v5 c1_i32_13
  let v22 : BitVec 32 := Scalar.addi v20 v21
  v22.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3072x1536 : Shape := ⟨2, ![3072, 1536]⟩
abbrev S_ : Shape := ⟨0, ![]⟩
abbrev S1536 : Shape := ⟨1, ![1536]⟩
abbrev S1x1536 : Shape := ⟨2, ![1, 1536]⟩

abbrev nBuf : Space → Nat
  | .hbm => 7
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S1536, .f32⟩
  | .hbm, ⟨3, _⟩ => ⟨S1x1536, .f32⟩
  | .hbm, ⟨4, _⟩ => ⟨S_, .f32⟩
  | .hbm, ⟨5, _⟩ => ⟨S1x1536, .f32⟩
  | .hbm, ⟨6, _⟩ => ⟨S1x1536, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S3072x1536_S1536_d0 : S3072x1536.ReducesTo [0] S1536
  h_S_ : 0 < S_.numel
  bcast_S1536_S1x1536_1 : S1536.BroadcastsInDim S1x1536 (![1] : Fin 1 → Fin S1x1536.rank)
  bcast_S_S1x1536 : S_.BroadcastsInDim S1x1536 (![] : Fin 0 → Fin S1x1536.rank)

variable [Facts₀]

class Facts : Prop extends Facts₀ where

variable [Facts]
-- ==== Proof.KernelProto.lean ====
/-
  The cross-device protocol of the column-mean kernel on the 2×2 mesh, as a one-round schedule.

  Device `c` holds the block of `x` at mesh position (c / 2, c % 2).  Its PARTNER `peer c` is the device with the
  other row coordinate and the same column coordinate (0 ↔ 2, 1 ↔ 3): the two partners hold the upper and the lower half
  of the same 768 columns.  Each device
    * signals its partner's barrier semaphore (one unit),
    * writes its own scaled column sums `mid c` (the sums of its 1536 rows times the named constant) into its result block,
    * waits for one unit on its own barrier semaphore — the partner is then inside the kernel and has handed over its
      landing buffer —,
    * copies its result block into the partner's landing buffer, waits for the copy's send and receive semaphores,
    * and adds what landed (`mid (peer c)`) to its own block: `mid c + mid (peer c)`.
  Three cells per device, one duty each, all in round 0: the barrier cell (paid by the partner's signal; it hands over
  the partner's landing buffer), the send cell (paid by the device's own copy; it hands the result block back) and the
  receive cell (paid by the partner's copy; it hands back the landing buffer holding `mid (peer c)`).
-/
import proofs.«900569_g7700000000000570_dist_mean_ax0_xy_m1536_n768_v7x_xy2x2_f32_1_alg».proof.Proof.Gen.Kernel
import proofs.«900569_g7700000000000570_dist_mean_ax0_xy_m1536_n768_v7x_xy2x2_f32_1_alg».proof.Proof.Gen.Kernel.Skeleton
import proofs.«900569_g7700000000000570_dist_mean_ax0_xy_m1536_n768_v7x_xy2x2_f32_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- The device with the other row coordinate and the same column coordinate. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both of the kernel's `device_id` chains name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## The memrefs and cells -/

abbrev xM : Memref sig .tc .vmem S1536x768 .f32 := Memref.whole cc0_stg0_0
abbrev oM : Memref sig .tc .vmem S1x768 .f32 := Memref.whole cc0_stg1_0
abbrev rM : Memref sig .tc .vmem S1x768 .f32 := Memref.whole cc0_scratch0

/-- The runtime's barrier semaphore of collective id 0 (unscoped), the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: send, receive; -/
abbrev osem : Fin 2 → SemLoc sig := fun | 0 => .dma sendS.sem | 1 => .dma recvS.sem
/-- all three of the protocol's, as this proof indexes them: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of a result block. -/
abbrev N : ℕ := (rM : Memref sig .tc .vmem S1x768 .f32).view.dmaCredit
theorem N_pos : 0 < N := View.dmaCredit_pos _ (by decide)

/-! ## Contents -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device `c`'s block of `x` as its input staging buffer holds it. -/
def xstg (c : Dev nD) : (cc0_stg0_0 : Ref sig .tc).ty.Contents (Elt F) :=
  (win0_0.blk t₀).view.read (Elt F) ((s₀ m ρ).mem ((c : Thread nD τ).loc main_arg0))

/-- Device `c`'s own scaled column sums: what it first writes into its result block and then sends. -/
def mid (c : Dev nD) : (cc0_stg1_0 : Ref sig .tc).ty.Contents (Elt F) := k0_pay2 (xstg m ρ c)

/-- What lands in device `c`'s landing buffer: its partner's scaled column sums. -/
def landed (c : Dev nD) : Buf (Elt F) ((rM : Memref sig .tc .vmem S1x768 .f32).view.loc (c : Thread nD τ)) := mid m ρ (peer c)

/-- The kernel's result on device `c`: its own scaled column sums plus its partner's. -/
def outAt (c : Dev nD) : (cc0_stg1_0 : Ref sig .tc).ty.Contents (Elt F) := k0_pay1 (mid m ρ c) (mid m ρ (peer c))

/-- A whole result block copied over a whole landing buffer leaves exactly the block. -/
theorem landed_eq (c : Dev nD) (fd : Buf (Elt F) ((rM : Memref sig .tc .vmem S1x768 .f32).view.loc (c : Thread nD τ))) (fs : (cc0_stg1_0 : Ref sig .tc).ty.Contents (Elt F)) :
    (rM : Memref sig .tc .vmem S1x768 .f32).view.write (Elt F) fd ((oM : Memref sig .tc .vmem S1x768 .f32).view.read (Elt F) fs) Finset.univ = fs := by
  show (View.whole cc0_scratch0).write (Elt F) fd ((View.whole cc0_stg1_0).read (Elt F) fs) Finset.univ = fs
  rw [View.read_whole]
  exact View.write_whole_univ _ _ _

abbrev scrPts (c : Dev nD) (f : Buf (Elt F) ((rM : Memref sig .tc .vmem S1x768 .f32).view.loc (c : Thread nD τ))) : sProp 𝕄 :=
  (rM : Memref sig .tc .vmem S1x768 .f32).view.loc (c : Thread nD τ) ↦[(rM : Memref sig .tc .vmem S1x768 .f32).view.set]{fullShare} f
abbrev outPts (c : Dev nD) (f : Buf (Elt F) ((oM : Memref sig .tc .vmem S1x768 .f32).view.loc (c : Thread nD τ))) : sProp 𝕄 :=
  (oM : Memref sig .tc .vmem S1x768 .f32).view.loc (c : Thread nD τ) ↦[(oM : Memref sig .tc .vmem S1x768 .f32).view.set]{fullShare} f

theorem scr_set : (rM : Memref sig .tc .vmem S1x768 .f32).view.set = Finset.univ := View.set_whole _
theorem out_set : (oM : Memref sig .tc .vmem S1x768 .f32).view.set = Finset.univ := View.set_whole _
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
theorem outPts_eq (c : Dev nD) (f : Buf (Elt F) ((c : Thread nD τ).loc cc0_stg1_0)) :
    outPts c f = (((c : Thread nD τ).loc cc0_stg1_0) ↦{fullShare} f : sProp 𝕄) := by unfold outPts; rw [out_set]

/-! ## The schedule -/

/-- What the partner's signal hands `c`: the partner's landing buffer, and that the partner is at round 0 of its receive
    cell — what the copy into that buffer needs. -/
def barPay (c : Dev nD) : sProp 𝕄 := iprop((∃ f, scrPts (peer c) f) ∗ reached ER (recvCell (peer c)) 0)
/-- What the partner's copy hands `c`: its landing buffer holding the partner's scaled column sums. -/
def recvPay (c : Dev nD) : sProp 𝕄 := scrPts c (landed m ρ c)
/-- What `c`'s own copy hands back: its result block, still holding its own scaled column sums. -/
def sendPay (c : Dev nD) : sProp 𝕄 := outPts c (mid m ρ c)

abbrev IsCell (g : GSem nD τ sig) : Prop := g.1.2 = .tc ∧ (g.2 = .reg barS ∨ g.2 = .dma sendS.sem ∨ g.2 = .dma recvS.sem)

/-- One round, round 0; each of a device's three cells has the one duty `()`: the barrier cell of one unit, the send and
    the receive cell of one block's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The whole of a cell's round, no duty taken yet, is its one duty's payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each core owes at launch; the levels -/

/-- Device `c` owes its partner's receive cell one block's credit and its partner's barrier cell one unit — summed so
    that the signal peels the last summand. -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A staging or send wait is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

/-- The cells' invariants device `c`'s body opens, under the names `K` the launch allocated them at: its own three, its
    partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c))
    ∗ cellInv ER (sched m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with —
    its partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the landing buffer holding the partner's scaled column sums, the two OWN cells at zero, closed (the
    barrier cell is the runtime's: nothing to hand back). -/
def Φ₁ (c : Dev nD) : sProp 𝕄 := iprop(scrPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelBody.lean ====
/-
  One device's body of the column-mean kernel, stepped once at a symbolic device `c`.

  In program order: the signal to the partner's barrier cell (it hands over `c`'s landing buffer); the load of the
  device's block of `x` and the store of its scaled column sums `mid c` into the result block; the wait for the
  partner's signal (it brings the partner's landing buffer); the copy of the result block into that buffer; the waits on
  the send cell (the result block comes back) and on the receive cell (the landing buffer comes back holding
  `mid (peer c)`); the loads of both and the store of their sum.
-/
import proofs.«900569_g7700000000000570_dist_mean_ax0_xy_m1536_n768_v7x_xy2x2_f32_1_alg».proof.Proof.KernelProto

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

/-! ## The schedule's tables as rewrites: the entry on the left, the payloads spelt as points-to facts -/

theorem payloadT_bar_own (c : Dev nD) (d : Unit) :
    (sched (F := F) m ρ).payload (barCell c) 0 d
      = iprop((∃ f, (View.loc ((peer c : Dev nD) : Thread nD τ) (Memref.whole cc0_scratch0).view ↦{fullShare} f : sProp 𝕄)) ∗ reached ER (recvCell (peer c)) 0) := by
  rw [payload_bar]; unfold barPay scrPts; rw [scr_set]
theorem payloadT_bar_peer (c : Dev nD) (d : Unit) :
    (sched (F := F) m ρ).payload (barCell (peer c)) 0 d
      = iprop((∃ f, (View.loc ((c : Dev nD) : Thread nD τ) (Memref.whole cc0_scratch0).view ↦{fullShare} f : sProp 𝕄)) ∗ reached ER (recvCell c) 0) := by
  rw [payload_bar]; unfold barPay scrPts; rw [scr_set, peer_peer]
theorem payloadT_send (c : Dev nD) (d : Unit) :
    (sched (F := F) m ρ).payload (sendCell c) 0 d
      = (View.loc ((c : Dev nD) : Thread nD τ) (Memref.whole cc0_stg1_0).view ↦{fullShare} mid m ρ c : sProp 𝕄) := by
  rw [payload_send]; unfold sendPay outPts; rw [out_set]
theorem payloadT_recv_own (c : Dev nD) (d : Unit) :
    (sched (F := F) m ρ).payload (recvCell c) 0 d
      = (View.loc ((c : Dev nD) : Thread nD τ) (Memref.whole cc0_scratch0).view ↦{fullShare} mid m ρ (peer c) : sProp 𝕄) := by
  rw [payload_recv]; unfold recvPay scrPts landed; rw [scr_set]
theorem payloadT_recv_peer (c : Dev nD) (d : Unit) :
    (sched (F := F) m ρ).payload (recvCell (peer c)) 0 d
      = (View.loc ((peer c : Dev nD) : Thread nD τ) (Memref.whole cc0_scratch0).view ↦{fullShare} mid m ρ c : sProp 𝕄) := by
  rw [payload_recv]; unfold recvPay scrPts landed; rw [scr_set, peer_peer]

attribute [local sl_canon] dev1_eq dev2_eq
attribute [local sl_rounds] duties_bar duties_send duties_recv amount_bar amount_send amount_recv expect_bar expect_send expect_recv
  payloadT_bar_own payloadT_send payloadT_recv_own
attribute [local sl_rounds high] payloadT_bar_peer payloadT_recv_peer

theorem hz : (![0, 0] : Fin 2 → Nat) = fun _ => 0 := funext fun a => by fin_cases a <;> rfl

/-- What the result block holds after the first store: the device's block of `x` read whole, its scaled column sums
    written whole over whatever the block held. -/
theorem mid_written (c : Dev nD) (g : Buf (Elt F) ((c : Thread nD τ).loc cc0_stg1_0)) :
    (Memref.whole cc0_stg1_0 : Memref sig .tc .vmem S1x768 .f32).view.writes (Elt F) g
        [⟨Rect.unit (s := S1x768) ![0, 0] S1x768.size inb_S1x768_S1x768_0_0,
          k0_pay2 (View.readAt (Elt F) (Memref.whole cc0_stg0_0 : Memref sig .tc .vmem S1536x768 .f32).view
            (Rect.unit (s := S1536x768) ![0, 0] S1536x768.size inb_S1536x768_S1536x768_0_0).toLoadRect (xstg m ρ c))⟩]
      = mid m ρ c := by
  have h1 : View.readAt (Elt F) (Memref.whole cc0_stg0_0 : Memref sig .tc .vmem S1536x768 .f32).view
      (Rect.unit (s := S1536x768) ![0, 0] S1536x768.size inb_S1536x768_S1536x768_0_0).toLoadRect (xstg m ρ c) = xstg m ρ c :=
    Memref.readAt_unit_zero (Elt F) cc0_stg0_0 hz _ (xstg m ρ c)
  rw [View.writes_singleton, h1]
  exact Memref.write_access_unit_zero_univ (Elt F) cc0_stg1_0 hz _ g _

/-- What the result block holds after the last store: the sum of what it held (the device's own scaled column sums) and
    what the landing buffer holds (the partner's), written whole. -/
theorem out_written (c : Dev nD) :
    (Memref.whole cc0_stg1_0 : Memref sig .tc .vmem S1x768 .f32).view.writes (Elt F) (mid m ρ c)
        [⟨Rect.unit (s := S1x768) ![0, 0] S1x768.size inb_S1x768_S1x768_0_0,
          k0_pay1
            (View.readAt (Elt F) (Memref.whole cc0_stg1_0 : Memref sig .tc .vmem S1x768 .f32).view
              (Rect.unit (s := S1x768) ![0, 0] S1x768.size inb_S1x768_S1x768_0_0).toLoadRect (mid m ρ c))
            (View.readAt (Elt F) (Memref.whole cc0_scratch0 : Memref sig .tc .vmem S1x768 .f32).view
              (Rect.unit (s := S1x768) ![0, 0] S1x768.size inb_S1x768_S1x768_0_0).toLoadRect (mid m ρ (peer c)))⟩]
      = outAt m ρ c := by
  have h1 : View.readAt (Elt F) (Memref.whole cc0_stg1_0 : Memref sig .tc .vmem S1x768 .f32).view
      (Rect.unit (s := S1x768) ![0, 0] S1x768.size inb_S1x768_S1x768_0_0).toLoadRect (mid m ρ c) = mid m ρ c :=
    Memref.readAt_unit_zero (Elt F) cc0_stg1_0 hz _ (mid m ρ c)
  have h2 : View.readAt (Elt F) (Memref.whole cc0_scratch0 : Memref sig .tc .vmem S1x768 .f32).view
      (Rect.unit (s := S1x768) ![0, 0] S1x768.size inb_S1x768_S1x768_0_0).toLoadRect (mid m ρ (peer c)) = mid m ρ (peer c) :=
    Memref.readAt_unit_zero (Elt F) cc0_scratch0 hz _ (mid m ρ (peer c))
  rw [View.writes_singleton, h1, h2]
  exact Memref.write_access_unit_zero_univ (Elt F) cc0_stg1_0 hz _ (mid m ρ c) _

set_option maxHeartbeats 1600000 in
/-- The copy of the result block into the partner's landing buffer, the transfer addressed to `n = peer c`: it pays the
    send cell's duty with the result block (back at the send wait) and the partner's receive cell's duty with the landing
    buffer holding the block's contents. -/
theorem wp_send_peer (c n : Dev nD) (hn : n = peer c) {hsc : (rM : Memref sig (Dev.tc n : Thread nD τ).2.kind .vmem S1x768 .f32).view.ref.isScScratch = false}
    {hsrc : (oM : Memref sig .tc .vmem S1x768 .f32).view.WordExact} {hdst : (rM : Memref sig .tc .vmem S1x768 .f32).view.WordExact}
    {hsem : DmaTarget.Typed .vmem (.dma recvS.sem) (.remote (Dev.tc n : Thread nD τ) (rM : Memref sig .tc .vmem S1x768 .f32) (.dma sendS.sem) hsc)}
    {α : Type} {Q : α → sProp 𝕄} {k : PUnit → Prog (TpuEff nD τ sig (Elt F) Λ₀ .tc) α}
    (fn : Buf (Elt F) ((peer c : Thread nD τ).loc cc0_scratch0)) (W : Waits sig Unit) :
    iprop(cellInv ER (sched m ρ) (K (c, 1)) (sendCell c) ∗ cellInv ER (sched m ρ) (K (peer c, 2)) (recvCell (peer c))
        ∗ (((c : Thread nD τ).loc cc0_stg1_0) ↦{fullShare} mid m ρ c) ∗ (((peer c : Thread nD τ).loc cc0_scratch0) ↦{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) rM (.dma sendS.sem) hsc) (.dma recvS.sem) hsrc hdst hsem) k) Q) := by
  subst hn
  rw [← outPts_eq c (mid m ρ c), ← scrPts_eq (peer c) fn]
  exact Rounds.wp_send_pointsTo 𝒱₀ ER (sched m ρ) (c : Thread nD τ) none (c' := (peer c : Thread nD τ)) (src := oM) (dst := rM) (q := fullShare)
    (fs := mid m ρ c) (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay; rw [landed_eq, landed, peer_peer])

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxHeartbeats 1600000 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  simp only [dev1_eq c, dev2_eq c]
  have hmw := mayWait_bar (F := F) c
  ihave Hscr' := (Entails.of_eq (scrPts_eq c f0)) $$ Hscr
  ihave Hx' := (Entails.of_eq (show ((c : Thread nD τ).loc cc0_stg0_0 ↦{fullShare} xstg m ρ c : sProp 𝕄)
      = ((Memref.whole cc0_stg0_0 : Memref sig .tc .vmem S1536x768 .f32).view.loc (c : Thread nD τ) ↦{fullShare} xstg m ρ c) from rfl)) $$ Hx
  ihave Hout' := (Entails.of_eq (show ((c : Thread nD τ).loc cc0_stg1_0 ↦{fullShare} g1 : sProp 𝕄)
      = ((Memref.whole cc0_stg1_0 : Memref sig .tc .vmem S1x768 .f32).view.loc (c : Thread nD τ) ↦{fullShare} g1) from rfl)) $$ Hout
  sl_exec (disch := simp only [dev1_eq, dev2_eq])
  rw [mid_written m ρ c g1]
  iapply (wp_send_peer m ρ K c _ (dev2_eq c) HatB_pay1_v _) $$ [Hout' HatB_pay1 HO HtS HtVP]
  · isplitr; · iexact HIsnd
    isplitr; · iexact HIrcvP
    isplitl [Hout']; · iexact Hout'
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  sl_exec
  rw [out_written m ρ c]
  -- the two own cells close: their counters at zero are the core's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ Dat.owesAt Pipeline.owesWithin
  rw [show (dats m ρ 0 c).owed t₀.succ = 0 from rfl, scrPts_eq]
  isplitl [HatV_pay1 HzS HzV]
  · isplitl [HatV_pay1]; · unfold landed; iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx']
  · iexists _; isplitr; · (ipureintro; rfl)
    iexact Hx'
  iexists _; isplitr; · (ipureintro; rfl)
  iexact HatS_pay1

end Body

end Cert.KernelProof

end
-- ==== Proof.KernelLaunch.lean ====
/-
  The launch of the column-mean kernel on the four devices: the protocol's ghost state dealt to the devices, every cell's
  invariant allocated under one update (a device signals its partner's barrier cell and copies onto its partner's receive
  cell, so the partners share those invariants), the launch credit, and the run of @main with every array after the run
  named: `x` unchanged, the result block at `outAt`.
-/
import proofs.«900569_g7700000000000570_dist_mean_ax0_xy_m1536_n768_v7x_xy2x2_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation in the pipeline library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- The one duty token of each of a device's three cells, as minted. -/
abbrev tokOf (ck : Dev nD × Fin 3) : GSem nD τ sig × ℕ × Unit := (kcell ck, 0, ())
theorem tokOf_injective : Function.Injective (tokOf : Dev nD × Fin 3 → GSem nD τ sig × ℕ × Unit) := by
  intro a b h
  exact kcell_injective (congrArg (fun x : GSem nD τ sig × ℕ × Unit => x.1) h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt to the partners: a barrier's token and a receive cell's token go to the partner, which pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: a block's credit if `d` is `c`'s partner. -/
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS, HzV⟩
  isplitr; · iempintro
  isplitl [HzS HzV]
  · isplitl [HzS] <;> iassumption
  iexists (landed m ρ c); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main — the partners handshaking on the runtime's barrier semaphore, then exchanging their scaled column
    sums — terminates, and every final state has each device's result array at `finalA` and `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the kernel's result: the one write-back writes the result block whole. -/
theorem finalA_out (c : Dev nD) : finalA m ρ c (1 : Fin 2) = outAt m ρ c := by
  unfold finalA
  have h := (dats (F := F) m ρ 0 c).arrAt_succ (1 : Fin 2) t₀
  rw [if_pos (show (cfg0.win (1 : Fin 2)).flush t₀ = true from rfl)] at h
  refine h.trans ?_
  exact Memref.write_access_unit_zero_univ (Elt F) main_v1 (funext fun a => by fin_cases a <;> rfl) _ _ _

/-- A device's block of `x` as its staging buffer holds it is the device's argument array. -/
theorem xstg_eq (c : Dev nD) : xstg m ρ c = m ((c : Thread nD τ).loc main_arg0) := by
  unfold xstg
  exact Memref.read_access_unit_zero (Elt F) main_arg0 (funext fun a => by fin_cases a <;> rfl) _ _

end Cert.KernelProof

end
-- ==== Proof.KernelIdealProto.lean ====
/-
  The cross-device protocol of the column-mean kernel on the 2×2 mesh, as a one-round schedule.

  Device `c` holds the block of `x` at mesh position (c / 2, c % 2).  Its PARTNER `peer c` is the device with the
  other row coordinate and the same column coordinate (0 ↔ 2, 1 ↔ 3): the two partners hold the upper and the lower half
  of the same 768 columns.  Each device
    * signals its partner's barrier semaphore (one unit),
    * writes its own scaled column sums `mid c` (the sums of its 1536 rows times the named constant) into its result block,
    * waits for one unit on its own barrier semaphore — the partner is then inside the kernel and has handed over its
      landing buffer —,
    * copies its result block into the partner's landing buffer, waits for the copy's send and receive semaphores,
    * and adds what landed (`mid (peer c)`) to its own block: `mid c + mid (peer c)`.
  Three cells per device, one duty each, all in round 0: the barrier cell (paid by the partner's signal; it hands over
  the partner's landing buffer), the send cell (paid by the device's own copy; it hands the result block back) and the
  receive cell (paid by the partner's copy; it hands back the landing buffer holding `mid (peer c)`).
-/
import proofs.«900569_g7700000000000570_dist_mean_ax0_xy_m1536_n768_v7x_xy2x2_f32_1_alg».proof.Proof.Gen.KernelIdeal
import proofs.«900569_g7700000000000570_dist_mean_ax0_xy_m1536_n768_v7x_xy2x2_f32_1_alg».proof.Proof.Gen.KernelIdeal.Skeleton
import proofs.«900569_g7700000000000570_dist_mean_ax0_xy_m1536_n768_v7x_xy2x2_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the protocol's own (duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- The device with the other row coordinate and the same column coordinate. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both of the kernel's `device_id` chains name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## The memrefs and cells -/

abbrev xM : Memref sig .tc .vmem S1536x768 .f32 := Memref.whole cc0_stg0_0
abbrev oM : Memref sig .tc .vmem S1x768 .f32 := Memref.whole cc0_stg1_0
abbrev rM : Memref sig .tc .vmem S1x768 .f32 := Memref.whole cc0_scratch0

/-- The runtime's barrier semaphore of collective id 0 (unscoped), the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: send, receive; -/
abbrev osem : Fin 2 → SemLoc sig := fun | 0 => .dma sendS.sem | 1 => .dma recvS.sem
/-- all three of the protocol's, as this proof indexes them: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of a result block. -/
abbrev N : ℕ := (rM : Memref sig .tc .vmem S1x768 .f32).view.dmaCredit
theorem N_pos : 0 < N := View.dmaCredit_pos _ (by decide)

/-! ## Contents -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device `c`'s block of `x` as its input staging buffer holds it. -/
def xstg (c : Dev nD) : (cc0_stg0_0 : Ref sig .tc).ty.Contents (Elt F) :=
  (win0_0.blk t₀).view.read (Elt F) ((s₀ m ρ).mem ((c : Thread nD τ).loc main_arg0))

/-- Device `c`'s own scaled column sums: what it first writes into its result block and then sends. -/
def mid (c : Dev nD) : (cc0_stg1_0 : Ref sig .tc).ty.Contents (Elt F) := k0_pay2 (xstg m ρ c)

/-- What lands in device `c`'s landing buffer: its partner's scaled column sums. -/
def landed (c : Dev nD) : Buf (Elt F) ((rM : Memref sig .tc .vmem S1x768 .f32).view.loc (c : Thread nD τ)) := mid m ρ (peer c)

/-- The kernel's result on device `c`: its own scaled column sums plus its partner's. -/
def outAt (c : Dev nD) : (cc0_stg1_0 : Ref sig .tc).ty.Contents (Elt F) := k0_pay1 (mid m ρ c) (mid m ρ (peer c))

/-- A whole result block copied over a whole landing buffer leaves exactly the block. -/
theorem landed_eq (c : Dev nD) (fd : Buf (Elt F) ((rM : Memref sig .tc .vmem S1x768 .f32).view.loc (c : Thread nD τ))) (fs : (cc0_stg1_0 : Ref sig .tc).ty.Contents (Elt F)) :
    (rM : Memref sig .tc .vmem S1x768 .f32).view.write (Elt F) fd ((oM : Memref sig .tc .vmem S1x768 .f32).view.read (Elt F) fs) Finset.univ = fs := by
  show (View.whole cc0_scratch0).write (Elt F) fd ((View.whole cc0_stg1_0).read (Elt F) fs) Finset.univ = fs
  rw [View.read_whole]
  exact View.write_whole_univ _ _ _

abbrev scrPts (c : Dev nD) (f : Buf (Elt F) ((rM : Memref sig .tc .vmem S1x768 .f32).view.loc (c : Thread nD τ))) : sProp 𝕄 :=
  (rM : Memref sig .tc .vmem S1x768 .f32).view.loc (c : Thread nD τ) ↦[(rM : Memref sig .tc .vmem S1x768 .f32).view.set]{fullShare} f
abbrev outPts (c : Dev nD) (f : Buf (Elt F) ((oM : Memref sig .tc .vmem S1x768 .f32).view.loc (c : Thread nD τ))) : sProp 𝕄 :=
  (oM : Memref sig .tc .vmem S1x768 .f32).view.loc (c : Thread nD τ) ↦[(oM : Memref sig .tc .vmem S1x768 .f32).view.set]{fullShare} f

theorem scr_set : (rM : Memref sig .tc .vmem S1x768 .f32).view.set = Finset.univ := View.set_whole _
theorem out_set : (oM : Memref sig .tc .vmem S1x768 .f32).view.set = Finset.univ := View.set_whole _
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
theorem outPts_eq (c : Dev nD) (f : Buf (Elt F) ((c : Thread nD τ).loc cc0_stg1_0)) :
    outPts c f = (((c : Thread nD τ).loc cc0_stg1_0) ↦{fullShare} f : sProp 𝕄) := by unfold outPts; rw [out_set]

/-! ## The schedule -/

/-- What the partner's signal hands `c`: the partner's landing buffer, and that the partner is at round 0 of its receive
    cell — what the copy into that buffer needs. -/
def barPay (c : Dev nD) : sProp 𝕄 := iprop((∃ f, scrPts (peer c) f) ∗ reached ER (recvCell (peer c)) 0)
/-- What the partner's copy hands `c`: its landing buffer holding the partner's scaled column sums. -/
def recvPay (c : Dev nD) : sProp 𝕄 := scrPts c (landed m ρ c)
/-- What `c`'s own copy hands back: its result block, still holding its own scaled column sums. -/
def sendPay (c : Dev nD) : sProp 𝕄 := outPts c (mid m ρ c)

abbrev IsCell (g : GSem nD τ sig) : Prop := g.1.2 = .tc ∧ (g.2 = .reg barS ∨ g.2 = .dma sendS.sem ∨ g.2 = .dma recvS.sem)

/-- One round, round 0; each of a device's three cells has the one duty `()`: the barrier cell of one unit, the send and
    the receive cell of one block's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The whole of a cell's round, no duty taken yet, is its one duty's payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each core owes at launch; the levels -/

/-- Device `c` owes its partner's receive cell one block's credit and its partner's barrier cell one unit — summed so
    that the signal peels the last summand. -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A staging or send wait is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

/-- The cells' invariants device `c`'s body opens, under the names `K` the launch allocated them at: its own three, its
    partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c))
    ∗ cellInv ER (sched m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with —
    its partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the landing buffer holding the partner's scaled column sums, the two OWN cells at zero, closed (the
    barrier cell is the runtime's: nothing to hand back). -/
def Φ₁ (c : Dev nD) : sProp 𝕄 := iprop(scrPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealBody.lean ====
/-
  One device's body of the column-mean kernel, stepped once at a symbolic device `c`.

  In program order: the signal to the partner's barrier cell (it hands over `c`'s landing buffer); the load of the
  device's block of `x` and the store of its scaled column sums `mid c` into the result block; the wait for the
  partner's signal (it brings the partner's landing buffer); the copy of the result block into that buffer; the waits on
  the send cell (the result block comes back) and on the receive cell (the landing buffer comes back holding
  `mid (peer c)`); the loads of both and the store of their sum.
-/
import proofs.«900569_g7700000000000570_dist_mean_ax0_xy_m1536_n768_v7x_xy2x2_f32_1_alg».proof.Proof.KernelIdealProto

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Body

variable (K : Dev nD × Fin 3 → ℕ)

/-! ## The schedule's tables as rewrites: the entry on the left, the payloads spelt as points-to facts -/

theorem payloadT_bar_own (c : Dev nD) (d : Unit) :
    (sched (F := F) m ρ).payload (barCell c) 0 d
      = iprop((∃ f, (View.loc ((peer c : Dev nD) : Thread nD τ) (Memref.whole cc0_scratch0).view ↦{fullShare} f : sProp 𝕄)) ∗ reached ER (recvCell (peer c)) 0) := by
  rw [payload_bar]; unfold barPay scrPts; rw [scr_set]
theorem payloadT_bar_peer (c : Dev nD) (d : Unit) :
    (sched (F := F) m ρ).payload (barCell (peer c)) 0 d
      = iprop((∃ f, (View.loc ((c : Dev nD) : Thread nD τ) (Memref.whole cc0_scratch0).view ↦{fullShare} f : sProp 𝕄)) ∗ reached ER (recvCell c) 0) := by
  rw [payload_bar]; unfold barPay scrPts; rw [scr_set, peer_peer]
theorem payloadT_send (c : Dev nD) (d : Unit) :
    (sched (F := F) m ρ).payload (sendCell c) 0 d
      = (View.loc ((c : Dev nD) : Thread nD τ) (Memref.whole cc0_stg1_0).view ↦{fullShare} mid m ρ c : sProp 𝕄) := by
  rw [payload_send]; unfold sendPay outPts; rw [out_set]
theorem payloadT_recv_own (c : Dev nD) (d : Unit) :
    (sched (F := F) m ρ).payload (recvCell c) 0 d
      = (View.loc ((c : Dev nD) : Thread nD τ) (Memref.whole cc0_scratch0).view ↦{fullShare} mid m ρ (peer c) : sProp 𝕄) := by
  rw [payload_recv]; unfold recvPay scrPts landed; rw [scr_set]
theorem payloadT_recv_peer (c : Dev nD) (d : Unit) :
    (sched (F := F) m ρ).payload (recvCell (peer c)) 0 d
      = (View.loc ((peer c : Dev nD) : Thread nD τ) (Memref.whole cc0_scratch0).view ↦{fullShare} mid m ρ c : sProp 𝕄) := by
  rw [payload_recv]; unfold recvPay scrPts landed; rw [scr_set, peer_peer]

attribute [local sl_canon] dev1_eq dev2_eq
attribute [local sl_rounds] duties_bar duties_send duties_recv amount_bar amount_send amount_recv expect_bar expect_send expect_recv
  payloadT_bar_own payloadT_send payloadT_recv_own
attribute [local sl_rounds high] payloadT_bar_peer payloadT_recv_peer

theorem hz : (![0, 0] : Fin 2 → Nat) = fun _ => 0 := funext fun a => by fin_cases a <;> rfl

/-- What the result block holds after the first store: the device's block of `x` read whole, its scaled column sums
    written whole over whatever the block held. -/
theorem mid_written (c : Dev nD) (g : Buf (Elt F) ((c : Thread nD τ).loc cc0_stg1_0)) :
    (Memref.whole cc0_stg1_0 : Memref sig .tc .vmem S1x768 .f32).view.writes (Elt F) g
        [⟨Rect.unit (s := S1x768) ![0, 0] S1x768.size inb_S1x768_S1x768_0_0,
          k0_pay2 (View.readAt (Elt F) (Memref.whole cc0_stg0_0 : Memref sig .tc .vmem S1536x768 .f32).view
            (Rect.unit (s := S1536x768) ![0, 0] S1536x768.size inb_S1536x768_S1536x768_0_0).toLoadRect (xstg m ρ c))⟩]
      = mid m ρ c := by
  have h1 : View.readAt (Elt F) (Memref.whole cc0_stg0_0 : Memref sig .tc .vmem S1536x768 .f32).view
      (Rect.unit (s := S1536x768) ![0, 0] S1536x768.size inb_S1536x768_S1536x768_0_0).toLoadRect (xstg m ρ c) = xstg m ρ c :=
    Memref.readAt_unit_zero (Elt F) cc0_stg0_0 hz _ (xstg m ρ c)
  rw [View.writes_singleton, h1]
  exact Memref.write_access_unit_zero_univ (Elt F) cc0_stg1_0 hz _ g _

/-- What the result block holds after the last store: the sum of what it held (the device's own scaled column sums) and
    what the landing buffer holds (the partner's), written whole. -/
theorem out_written (c : Dev nD) :
    (Memref.whole cc0_stg1_0 : Memref sig .tc .vmem S1x768 .f32).view.writes (Elt F) (mid m ρ c)
        [⟨Rect.unit (s := S1x768) ![0, 0] S1x768.size inb_S1x768_S1x768_0_0,
          k0_pay1
            (View.readAt (Elt F) (Memref.whole cc0_stg1_0 : Memref sig .tc .vmem S1x768 .f32).view
              (Rect.unit (s := S1x768) ![0, 0] S1x768.size inb_S1x768_S1x768_0_0).toLoadRect (mid m ρ c))
            (View.readAt (Elt F) (Memref.whole cc0_scratch0 : Memref sig .tc .vmem S1x768 .f32).view
              (Rect.unit (s := S1x768) ![0, 0] S1x768.size inb_S1x768_S1x768_0_0).toLoadRect (mid m ρ (peer c)))⟩]
      = outAt m ρ c := by
  have h1 : View.readAt (Elt F) (Memref.whole cc0_stg1_0 : Memref sig .tc .vmem S1x768 .f32).view
      (Rect.unit (s := S1x768) ![0, 0] S1x768.size inb_S1x768_S1x768_0_0).toLoadRect (mid m ρ c) = mid m ρ c :=
    Memref.readAt_unit_zero (Elt F) cc0_stg1_0 hz _ (mid m ρ c)
  have h2 : View.readAt (Elt F) (Memref.whole cc0_scratch0 : Memref sig .tc .vmem S1x768 .f32).view
      (Rect.unit (s := S1x768) ![0, 0] S1x768.size inb_S1x768_S1x768_0_0).toLoadRect (mid m ρ (peer c)) = mid m ρ (peer c) :=
    Memref.readAt_unit_zero (Elt F) cc0_scratch0 hz _ (mid m ρ (peer c))
  rw [View.writes_singleton, h1, h2]
  exact Memref.write_access_unit_zero_univ (Elt F) cc0_stg1_0 hz _ (mid m ρ c) _

set_option maxHeartbeats 1600000 in
/-- The copy of the result block into the partner's landing buffer, the transfer addressed to `n = peer c`: it pays the
    send cell's duty with the result block (back at the send wait) and the partner's receive cell's duty with the landing
    buffer holding the block's contents. -/
theorem wp_send_peer (c n : Dev nD) (hn : n = peer c) {hsc : (rM : Memref sig (Dev.tc n : Thread nD τ).2.kind .vmem S1x768 .f32).view.ref.isScScratch = false}
    {hsrc : (oM : Memref sig .tc .vmem S1x768 .f32).view.WordExact} {hdst : (rM : Memref sig .tc .vmem S1x768 .f32).view.WordExact}
    {hsem : DmaTarget.Typed .vmem (.dma recvS.sem) (.remote (Dev.tc n : Thread nD τ) (rM : Memref sig .tc .vmem S1x768 .f32) (.dma sendS.sem) hsc)}
    {α : Type} {Q : α → sProp 𝕄} {k : PUnit → Prog (TpuEff nD τ sig (Elt F) Λ₀ .tc) α}
    (fn : Buf (Elt F) ((peer c : Thread nD τ).loc cc0_scratch0)) (W : Waits sig Unit) :
    iprop(cellInv ER (sched m ρ) (K (c, 1)) (sendCell c) ∗ cellInv ER (sched m ρ) (K (peer c, 2)) (recvCell (peer c))
        ∗ (((c : Thread nD τ).loc cc0_stg1_0) ↦{fullShare} mid m ρ c) ∗ (((peer c : Thread nD τ).loc cc0_scratch0) ↦{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) rM (.dma sendS.sem) hsc) (.dma recvS.sem) hsrc hdst hsem) k) Q) := by
  subst hn
  rw [← outPts_eq c (mid m ρ c), ← scrPts_eq (peer c) fn]
  exact Rounds.wp_send_pointsTo 𝒱₀ ER (sched m ρ) (c : Thread nD τ) none (c' := (peer c : Thread nD τ)) (src := oM) (dst := rM) (q := fullShare)
    (fs := mid m ρ c) (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay; rw [landed_eq, landed, peer_peer])

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxHeartbeats 1600000 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  simp only [dev1_eq c, dev2_eq c]
  have hmw := mayWait_bar (F := F) c
  ihave Hscr' := (Entails.of_eq (scrPts_eq c f0)) $$ Hscr
  ihave Hx' := (Entails.of_eq (show ((c : Thread nD τ).loc cc0_stg0_0 ↦{fullShare} xstg m ρ c : sProp 𝕄)
      = ((Memref.whole cc0_stg0_0 : Memref sig .tc .vmem S1536x768 .f32).view.loc (c : Thread nD τ) ↦{fullShare} xstg m ρ c) from rfl)) $$ Hx
  ihave Hout' := (Entails.of_eq (show ((c : Thread nD τ).loc cc0_stg1_0 ↦{fullShare} g1 : sProp 𝕄)
      = ((Memref.whole cc0_stg1_0 : Memref sig .tc .vmem S1x768 .f32).view.loc (c : Thread nD τ) ↦{fullShare} g1) from rfl)) $$ Hout
  sl_exec (disch := simp only [dev1_eq, dev2_eq])
  rw [mid_written m ρ c g1]
  iapply (wp_send_peer m ρ K c _ (dev2_eq c) HatB_pay1_v _) $$ [Hout' HatB_pay1 HO HtS HtVP]
  · isplitr; · iexact HIsnd
    isplitr; · iexact HIrcvP
    isplitl [Hout']; · iexact Hout'
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  sl_exec
  rw [out_written m ρ c]
  -- the two own cells close: their counters at zero are the core's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ Dat.owesAt Pipeline.owesWithin
  rw [show (dats m ρ 0 c).owed t₀.succ = 0 from rfl, scrPts_eq]
  isplitl [HatV_pay1 HzS HzV]
  · isplitl [HatV_pay1]; · unfold landed; iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx']
  · iexists _; isplitr; · (ipureintro; rfl)
    iexact Hx'
  iexists _; isplitr; · (ipureintro; rfl)
  iexact HatS_pay1

end Body

end Cert.KernelIdealProof

end
-- ==== Proof.KernelIdealLaunch.lean ====
/-
  The launch of the column-mean kernel on the four devices: the protocol's ghost state dealt to the devices, every cell's
  invariant allocated under one update (a device signals its partner's barrier cell and copies onto its partner's receive
  cell, so the partners share those invariants), the launch credit, and the run of @main with every array after the run
  named: `x` unchanged, the result block at `outAt`.
-/
import proofs.«900569_g7700000000000570_dist_mean_ax0_xy_m1536_n768_v7x_xy2x2_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation in the pipeline library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- The one duty token of each of a device's three cells, as minted. -/
abbrev tokOf (ck : Dev nD × Fin 3) : GSem nD τ sig × ℕ × Unit := (kcell ck, 0, ())
theorem tokOf_injective : Function.Injective (tokOf : Dev nD × Fin 3 → GSem nD τ sig × ℕ × Unit) := by
  intro a b h
  exact kcell_injective (congrArg (fun x : GSem nD τ sig × ℕ × Unit => x.1) h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt to the partners: a barrier's token and a receive cell's token go to the partner, which pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: a block's credit if `d` is `c`'s partner. -/
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS, HzV⟩
  isplitr; · iempintro
  isplitl [HzS HzV]
  · isplitl [HzS] <;> iassumption
  iexists (landed m ρ c); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main — the partners handshaking on the runtime's barrier semaphore, then exchanging their scaled column
    sums — terminates, and every final state has each device's result array at `finalA` and `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the kernel's result: the one write-back writes the result block whole. -/
theorem finalA_out (c : Dev nD) : finalA m ρ c (1 : Fin 2) = outAt m ρ c := by
  unfold finalA
  have h := (dats (F := F) m ρ 0 c).arrAt_succ (1 : Fin 2) t₀
  rw [if_pos (show (cfg0.win (1 : Fin 2)).flush t₀ = true from rfl)] at h
  refine h.trans ?_
  exact Memref.write_access_unit_zero_univ (Elt F) main_v1 (funext fun a => by fin_cases a <;> rfl) _ _ _

/-- A device's block of `x` as its staging buffer holds it is the device's argument array. -/
theorem xstg_eq (c : Dev nD) : xstg m ρ c = m ((c : Thread nD τ).loc main_arg0) := by
  unfold xstg
  exact Memref.read_access_unit_zero (Elt F) main_arg0 (funext fun a => by fin_cases a <;> rfl) _ _

end Cert.KernelIdealProof

end
-- ==== Proof.MeanValue.lean ====
/- The value of the two-device column mean. On a 2 × 2 mesh device `c` holds the `1536 × 768` block of a
   `3072 × 1536` array `X` at mesh position `(c / 2, c % 2)`. It sums its block's columns, scales the sums by the
   rational `1/3072`, and adds to them the scaled column sums of its partner, the device in the other row and the same
   column. The result is the device's `1 × 768` block of the column mean `(0 + Σ_R X[R, J]) / 3072` of the whole array.
   At the ideal values — a float an extended real — this is an identity with no side condition:
     (Σ one half) · (1/3072) + (Σ other half) · (1/3072) = (0 + Σ all 3072 rows) / 3072
   holds on ALL extended reals, infinite entries included, because `1/3072` is a nonnegative real and a nonnegative
   real factor distributes over every sum of extended reals (over `⊤ + ⊥ = ⊥` too), and because division by the real
   `3072` is the product with `1/3072`.
   First the arithmetic (the partner, the mesh coordinates of the two, the constants, the law); then the two generated
   payloads and the generated reference read at an index; then the blocks' entries located in the whole array; last
   the value, `result_eq`. -/
import proofs.«900569_g7700000000000570_dist_mean_ax0_xy_m1536_n768_v7x_xy2x2_f32_1_alg».proof.Proof.Gen.KernelIdeal.Skeleton
import proofs.«900569_g7700000000000570_dist_mean_ax0_xy_m1536_n768_v7x_xy2x2_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal
import Idealize.ShloMosaic.PureOps.IdealRules
import Idealize.ShloMosaic.PureOps.Ideal.Laws
import Mathlib.Algebra.BigOperators.Fin
import Mathlib.Data.EReal.Operations

noncomputable section

open scoped BigOperators

namespace Cert.MeanValue

open Idealize.ShloMosaic Idealize.ShloMosaic.ValueIdx

/-! ## The arithmetic -/

/-- The partner of device `c` on the 2 × 2 mesh (devices numbered row-major): the other row, the same column. -/
def peerIdx (c : Fin 4) : Fin 4 := ⟨(c.val + 2) % 4, Nat.mod_lt _ (by decide)⟩

/-- A device and its partner sit in the two different rows of the mesh … -/
theorem rows_of_pair : ∀ c : Fin 4,
    (Layout.meshLin [2, 2] c.val [0] = 0 ∧ Layout.meshLin [2, 2] (peerIdx c).val [0] = 1) ∨
    (Layout.meshLin [2, 2] c.val [0] = 1 ∧ Layout.meshLin [2, 2] (peerIdx c).val [0] = 0) := by decide

/-- … and in the same column. -/
theorem col_of_peer : ∀ c : Fin 4,
    Layout.meshLin [2, 2] (peerIdx c).val [1] = Layout.meshLin [2, 2] c.val [1] := by decide

/-- The reference's divisor, the pattern of `3072.0`, denotes the real 3072. -/
theorem ofBits_3072 : Ideal.ofBits .f32 0x45400000#32 = ((3072 : ℝ) : EReal) := by
  simp [Ideal.ofBits, Ideal.ieee, -EReal.coe_mul]; norm_num

/-- The factor `1/3072` is a nonnegative real. -/
theorem inv_rows_nonneg : (0 : EReal) ≤ ((1 / 3072 : ℝ) : EReal) := EReal.coe_nonneg.mpr (by norm_num)

/-- The law. `f` is one column of the whole array, `a` and `b` the same column of the two half-height blocks, block
    `a` starting at row `r · 1536` and block `b` at row `r' · 1536`, where `(r, r')` is `(0, 1)` or `(1, 0)`. The two
    scaled half sums add up to the reference's quotient: the sum over 3072 rows splits at row 1536, the order of
    the two halves does not matter, and the nonnegative real factor distributes over their sum. -/
theorem mean_of_halves (f : Fin 3072 → EReal) (a b : Fin 1536 → EReal) (r r' : ℕ)
    (hr : (r = 0 ∧ r' = 1) ∨ (r = 1 ∧ r' = 0))
    (ha : ∀ (k : Fin 1536) (K : Fin 3072), K.val = r * 1536 + k.val → a k = f K)
    (hb : ∀ (k : Fin 1536) (K : Fin 3072), K.val = r' * 1536 + k.val → b k = f K) :
    (∑ k, a k) * ((1 / 3072 : ℝ) : EReal) + (∑ k, b k) * ((1 / 3072 : ℝ) : EReal)
      = Ideal.div (Ideal.ofBits .f32 0x00000000#32 + ∑ K, f K) (Ideal.ofBits .f32 0x45400000#32) := by
  rw [ofBits_3072, Ideal.ofBits_zero_f32, zero_add, Ideal.div_coe (by norm_num : (3072 : ℝ) ≠ 0),
    ← EReal.right_distrib_of_nonneg_of_ne_top inv_rows_nonneg (EReal.coe_ne_top _)]
  congr 1
  have hsplit : ∑ K, f K = ∑ k : Fin 1536, f (Fin.castAdd 1536 k) + ∑ k : Fin 1536, f (Fin.natAdd 1536 k) :=
    Fin.sum_univ_add (a := 1536) (b := 1536) f
  rw [hsplit]
  rcases hr with ⟨rfl, rfl⟩ | ⟨rfl, rfl⟩
  · congr 1
    · exact Finset.sum_congr rfl fun k _ => ha k (Fin.castAdd 1536 k) (by show k.val = 0 * 1536 + k.val; omega)
    · exact Finset.sum_congr rfl fun k _ => hb k (Fin.natAdd 1536 k) (by show 1536 + k.val = 1 * 1536 + k.val; omega)
  · rw [add_comm]
    congr 1
    · exact Finset.sum_congr rfl fun k _ => hb k (Fin.castAdd 1536 k) (by show k.val = 0 * 1536 + k.val; omega)
    · exact Finset.sum_congr rfl fun k _ => ha k (Fin.natAdd 1536 k) (by show 1536 + k.val = 1 * 1536 + k.val; omega)

/-! ## The payloads and the reference at an index -/

/-- The kernel's named constant `"inv_rows"` is, at the ideal values, the rational `1/3072` its table gives it. -/
theorem inv_rows :
    Named.named (F := Ideal) Cert.KernelIdeal.κ "inv_rows" (φ := .f32) 0x39AAAAAB#32 = ((1 / 3072 : ℝ) : EReal) :=
  IdealRules.named_const.ideal_named_scalar _ _ _ _ rfl

/-- The sum over the rows of a `1536 × 768` block, read at column `j`: the sum over `k` of the entries `(k, j)`. -/
theorem colsum_apply (v : FVec Ideal ⟨2, ![1536, 768]⟩ .f32) (h : Shape.Reduces ⟨2, ![1536, 768]⟩ [0] ⟨1, ![768]⟩)
    (hφ : FKind.Formats .f32) (hacc : (0x00000000#32 : BitVec 32) = 0x00000000#32) (j : Fin 768) :
    multiReduction .add [0] ⟨1, ![768]⟩ v 0x00000000#32 h hφ hacc (ix1 j) = ∑ k : Fin 1536, v (ix2 k j) := by
  refine (Ideal.multiReduction_add_single v 0x00000000#32 h hφ hacc (ix1 j)).trans ?_
  exact Finset.sum_congr rfl fun k _ =>
    congrArg v (funext fun a => Fin.ext (by match a with | ⟨0, _⟩ => rfl | ⟨1, _⟩ => rfl))

/-- What a device sends: at column `j`, the sum of its block's column `j` times `1/3072`. -/
theorem pay2_apply (v : FVec Ideal ⟨2, ![1536, 768]⟩ .f32) (u : Fin 1) (j : Fin 768) :
    Cert.KernelIdeal.Gen.k0_pay2 (F := Ideal) v (ix2 u j)
      = (∑ k : Fin 1536, v (ix2 k j)) * ((1 / 3072 : ℝ) : EReal) := by
  unfold Cert.KernelIdeal.Gen.k0_pay2
  simp only [mulf_apply, broadcast_apply, inv_rows, shapeCast_self]
  rw [shapeCast_a_1a_apply, colsum_apply]

/-- What a device ends with: its own scaled column sums plus the ones it received. -/
theorem pay1_apply (a b : FVec Ideal ⟨2, ![1, 768]⟩ .f32) (i : (⟨2, ![1, 768]⟩ : Shape).Idx) :
    Cert.KernelIdeal.Gen.k0_pay1 (F := Ideal) a b i = a i + b i := by
  unfold Cert.KernelIdeal.Gen.k0_pay1
  simp only [addf_apply, shapeCast_self]

/-- The reference at an index `I` of the `1 × 1536` result: zero plus the sum over all 3072 rows of column `I 1`,
    divided by `3072.0`. -/
theorem ref_apply (X : (⟨2, ![3072, 1536]⟩ : Shape).Idx → EReal) (I : (⟨2, ![1, 1536]⟩ : Shape).Idx) :
    Cert.ReferenceIdeal.Read.val_main_v3 (F := Ideal) X I
      = Ideal.div (Ideal.ofBits .f32 0x00000000#32
          + ∑ K : Fin 3072, X (Cert.ReferenceIdeal.Read.idx_main_v0 (Cert.ReferenceIdeal.Read.idx_main_v1 I) K))
        (Ideal.ofBits .f32 0x45400000#32) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  rfl

/-- Entry `(k, j)` of device `d`'s block of the whole array is the whole array's entry `(K, I 1)` whenever `K` is
    row `k` of the device's row block and `I 1` is column `j` of its column block. -/
theorem block_at (X : (⟨2, ![3072, 1536]⟩ : Shape).Idx → EReal) (d : Fin 4) (j : Fin 768) (k : Fin 1536)
    (K : Fin 3072) (I : (⟨2, ![1, 1536]⟩ : Shape).Idx)
    (hK : K.val = Layout.meshLin [2, 2] d.val [0] * 1536 + k.val)
    (hI : (I 1).val = Layout.meshLin [2, 2] d.val [1] * 768 + j.val) :
    (Layout.blockN ⟨2, ![1536, 768]⟩ ⟨2, ![3072, 1536]⟩ (Layout.meshBlock [2, 2] ![[0], [1]] d) X) (ix2 k j)
      = X (Cert.ReferenceIdeal.Read.idx_main_v0 (Cert.ReferenceIdeal.Read.idx_main_v1 I) K) := by
  rw [Layout.blockN_apply]
  refine congrArg X (funext fun a => Fin.ext ?_)
  match a with
  | ⟨0, _⟩ =>
    show Layout.meshLin [2, 2] d.val [0] * 1536 + k.val = K.val
    exact hK.symm
  | ⟨1, _⟩ =>
    show Layout.meshLin [2, 2] d.val [1] * 768 + j.val = (I 1).val
    exact hI.symm

/-- THE VALUE. On device `c` the kernel's result — the scaled column sums of the device's own block plus those of its
    partner's block — is the device's block of the reference's mean over all 3072 rows. -/
theorem result_eq (X : (⟨2, ![3072, 1536]⟩ : Shape).Idx → EReal) (c : Fin 4) :
    Cert.KernelIdeal.Gen.k0_pay1 (F := Ideal)
        (Cert.KernelIdeal.Gen.k0_pay2 (F := Ideal) (Layout.blockN ⟨2, ![1536, 768]⟩ ⟨2, ![3072, 1536]⟩ (Layout.meshBlock [2, 2] ![[0], [1]] c) X))
        (Cert.KernelIdeal.Gen.k0_pay2 (F := Ideal) (Layout.blockN ⟨2, ![1536, 768]⟩ ⟨2, ![3072, 1536]⟩ (Layout.meshBlock [2, 2] ![[0], [1]] (peerIdx c)) X))
      = Layout.blockN ⟨2, ![1, 768]⟩ ⟨2, ![1, 1536]⟩ (Layout.meshBlock [2, 2] ![[], [1]] c) (Cert.ReferenceIdeal.Read.val_main_v3 (F := Ideal) X) := by
  funext i
  obtain ⟨u, j, rfl⟩ : ∃ (u : Fin 1) (j : Fin 768), i = ix2 u j := ⟨i 0, i 1, eq_ix2 i⟩
  rw [pay1_apply, pay2_apply, pay2_apply, Layout.blockN_apply, ref_apply]
  refine mean_of_halves _ _ _ _ _ (rows_of_pair c)
    (fun k K hK => block_at X c j k K _ hK (by rfl))
    (fun k K hK => block_at X (peerIdx c) j k K _ hK ?_)
  show Layout.meshLin [2, 2] c.val [1] * 768 + j.val = Layout.meshLin [2, 2] (peerIdx c).val [1] * 768 + j.val
  rw [col_of_peer]

/-- info: 'Cert.MeanValue.result_eq' depends on axioms: [propext, Classical.choice, Quot.sound] -/
#guard_msgs in #print axioms Cert.MeanValue.result_eq

end Cert.MeanValue

end
-- ==== Proof.Claims.lean ====
/-
  The five claims about the column-mean kernel on the 2×2 mesh.

  Device `c` at mesh position (c / 2, c % 2) holds rows 1536·(c / 2) … and columns 768·(c % 2) … of `x`.  It ends with
  (the sum of its 1536 rows) · 1/3072 + (the sum of its partner's 1536 rows) · 1/3072 in each of its 768 columns — its
  partner being the device that holds the other 1536 rows of the same columns —, which is the mean over all 3072 rows of
  those columns: its block of the reference's result.  The scale the kernel multiplies by is the named constant 1/3072;
  the two forms agree on all extended reals because 1/3072 is a nonnegative real.
-/
import proofs.«900569_g7700000000000570_dist_mean_ax0_xy_m1536_n768_v7x_xy2x2_f32_1_alg».proof.Defs
import proofs.«900569_g7700000000000570_dist_mean_ax0_xy_m1536_n768_v7x_xy2x2_f32_1_alg».proof.Proof.KernelLaunch
import proofs.«900569_g7700000000000570_dist_mean_ax0_xy_m1536_n768_v7x_xy2x2_f32_1_alg».proof.Proof.KernelIdealLaunch
import proofs.«900569_g7700000000000570_dist_mean_ax0_xy_m1536_n768_v7x_xy2x2_f32_1_alg».proof.Proof.MeanValue
import proofs.«900569_g7700000000000570_dist_mean_ax0_xy_m1536_n768_v7x_xy2x2_f32_1_alg».proof.Proof.Gen.ReferenceIdeal.Run
import proofs.«900569_g7700000000000570_dist_mean_ax0_xy_m1536_n768_v7x_xy2x2_f32_1_alg».proof.Proof.Gen.ReferenceIdeal.Read
import proofs.«900569_g7700000000000570_dist_mean_ax0_xy_m1536_n768_v7x_xy2x2_f32_1_alg».proof.Proof.Gen.Pre_finite_inputs_Kernel
import proofs.«900569_g7700000000000570_dist_mean_ax0_xy_m1536_n768_v7x_xy2x2_f32_1_alg».proof.Proof.Gen.Pre_finite_inputs_ReferenceIdeal

noncomputable section

namespace Cert.Proof.Claims

open Idealize.ShloMosaic Idealize.ShloMosaic.TcCoe Idealize.SL.Sem

/-- The kernel as printed runs to the end on the four devices and leaves `x` unchanged. -/
theorem frame_k : Cert.frame_Kernel := by
  intro m ρ _
  exact (θ_run Cert.Kernel.defs _ _).mono (fun _ h c => (h c (0 : Fin 2)).trans (Cert.KernelProof.finalA_x m ρ c))
    (Cert.KernelProof.run_main (F := Bits) m ρ)

/-- So does its idealization. -/
theorem frame_ki : Cert.frame_KernelIdeal := by
  intro m ρ _
  exact (θ_run Cert.KernelIdeal.defs _ _).mono (fun _ h c => (h c (0 : Fin 2)).trans (Cert.KernelIdealProof.finalA_x m ρ c))
    (Cert.KernelIdealProof.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives `"inv_rows"` the value 1/3072. -/
theorem preserves : Cert.preserves_Kernel_KernelIdeal :=
  IdealRules.named_const.statement Cert.KernelIdeal.κ "inv_rows" .f32 0x39AAAAAB#32 ((1 / 3072 : ℝ) : EReal) rfl

/-- Each device's result block ends as its block of the column means of the whole array. -/
theorem algebraic : Cert.algebraic_KernelIdeal_ReferenceIdeal := by
  intro m ρ m' ρ' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono
      (fun _ h c => ⟨(h c (1 : Fin 2)).trans ?_, (h c (0 : Fin 2)).trans (Cert.KernelIdealProof.finalA_x m ρ c)⟩)
      (Cert.KernelIdealProof.run_main (F := Ideal) m ρ)
    rw [Cert.KernelIdealProof.finalA_out]
    unfold Cert.KernelIdealProof.outAt Cert.KernelIdealProof.mid
    rw [Cert.KernelIdealProof.xstg_eq, Cert.KernelIdealProof.xstg_eq, hagree c, hagree (Cert.KernelIdealProof.peer c)]
    exact Cert.MeanValue.result_eq _ c
  · exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

end Cert.Proof.Claims

end
-- ==== Proof.lean ====
/-
  The proof of `Cert.Claim`: the column-mean kernel on the 2×2 mesh against `jnp.mean(x, axis=0, keepdims=True)`.

  The witnesses of the programs' stated facts come first; then the five claims (Proof/Claims.lean): the two kernels'
  frames from the run of the cross-device protocol at either instance (Proof/Kernel*Proto, *Body, *Launch), the
  reference's frame from its run, the named constant's ledger entry, and the value claim from the protocol's run at the
  ideal instance joined to the reference's value index by index (Proof/MeanValue.lean).
-/
import proofs.«900569_g7700000000000570_dist_mean_ax0_xy_m1536_n768_v7x_xy2x2_f32_1_alg».proof.Defs
import proofs.«900569_g7700000000000570_dist_mean_ax0_xy_m1536_n768_v7x_xy2x2_f32_1_alg».proof.Proof.Gen.Kernel
import proofs.«900569_g7700000000000570_dist_mean_ax0_xy_m1536_n768_v7x_xy2x2_f32_1_alg».proof.Proof.Gen.KernelIdeal
import proofs.«900569_g7700000000000570_dist_mean_ax0_xy_m1536_n768_v7x_xy2x2_f32_1_alg».proof.Proof.Gen.ReferenceIdeal
import proofs.«900569_g7700000000000570_dist_mean_ax0_xy_m1536_n768_v7x_xy2x2_f32_1_alg».proof.Proof.Gen.Pre_finite_inputs_Kernel
import proofs.«900569_g7700000000000570_dist_mean_ax0_xy_m1536_n768_v7x_xy2x2_f32_1_alg».proof.Proof.Gen.Pre_finite_inputs_ReferenceIdeal
import proofs.«900569_g7700000000000570_dist_mean_ax0_xy_m1536_n768_v7x_xy2x2_f32_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.Claims.frame_k, Cert.Proof.Claims.frame_ki, Cert.Proof.Claims.frame_ri, Cert.Proof.Claims.preserves, Cert.Proof.Claims.algebraic⟩

end Cert.Proof

end
